-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S_, .f32⟩
  | .hbm, ⟨5, _⟩ => ⟨S32x2048, .f32⟩
  | .hbm, ⟨6, _⟩ => ⟨S_, .f32⟩
  | .hbm, ⟨7, _⟩ => ⟨S32x2048, .f32⟩
  | .hbm, ⟨8, _⟩ => ⟨S32x2048, .f32⟩
  | .hbm, ⟨9, _⟩ => ⟨S32x2048x1, .f32⟩
  | .hbm, ⟨10, _⟩ => ⟨S32x2048x2048, .f32⟩
  | .hbm, ⟨11, _⟩ => ⟨S32x2048x2048, .f32⟩
  | .hbm, ⟨12, _⟩ => ⟨S32x2048x2048, .f32⟩
  | .hbm, ⟨13, _⟩ => ⟨S_, .f32⟩
  | .hbm, ⟨14, _⟩ => ⟨S32x2048, .f32⟩
  | .hbm, ⟨15, _⟩ => ⟨S32x2048x1, .f32⟩
  | .hbm, ⟨16, _⟩ => ⟨S32x2048x2048, .f32⟩
  | .hbm, ⟨17, _⟩ => ⟨S32x2048x2048, .f32⟩
  | .hbm, ⟨18, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.RowSoftmax.lean ====
/-
  One row of attention over the extended reals, free of any program.

  A query row q (d numbers) meets n key rows k j and n value rows v j.  The score against key j is the inner product
  s j = ∑ e, q e · k j e; the row maximum M is the fold of max over the n scores, started at the bottom element; the
  weight of key j is w j = exp (s j - M) and the normalizer is L = ∑ j, w j.

  Two arrangements of the output at column e:
    * late  : (∑ j, w j · v j e) · (1 / L)   — the product with the values first, one reciprocal per row afterwards;
    * early : ∑ j, (w j / L) · v j e         — every weight divided by the normalizer before the product.

  On the extended reals a product does not distribute over a sum in general (an infinite factor, or terms of both
  signs at infinity, break it), so the two arrangements are compared where every entry of q, k and v is a real number.
  Then every score is real, the fold of max over n ≥ 1 reals is real, every weight is exp of a real — a positive real —
  and L is a positive real, so dividing by L is multiplying by the real 1 / L and both arrangements are the coercion of
  one real number: (∑ j, w j · v j e) · (1 / L) = ∑ j, w j · (1 / L) · v j e.
-/
import Idealize.ShloMosaic.PureOps.Ideal.Laws
import Idealize.ShloMosaic.Lib.IdealHost
import proofs.«404728_j7713761263844_3_alg».proof.Proof.LibPlainMatmul

noncomputable section

namespace AttentionRow

open Idealize.ShloMosaic

variable {d n c : Nat}

/-- The score of the query row against key row j: their inner product. -/
def score (q : Fin d → EReal) (k : Fin n → Fin d → EReal) (j : Fin n) : EReal := ∑ e : Fin d, q e * k j e

/-- The row maximum: the fold of max over the scores, from the bottom element. -/
def rowMax (q : Fin d → EReal) (k : Fin n → Fin d → EReal) : EReal :=
  (Finset.univ : Finset (Fin n)).fold max ⊥ (fun j => score q k j)

/-- The weight of key j: the exponential of its score less the row maximum. -/
def weight (q : Fin d → EReal) (k : Fin n → Fin d → EReal) (j : Fin n) : EReal := Ideal.exp (score q k j - rowMax q k)

/-- The normalizer: the sum of the weights. -/
def normalizer (q : Fin d → EReal) (k : Fin n → Fin d → EReal) : EReal := ∑ j : Fin n, weight q k j

/-- The output at column e, normalized LATE: the weighted sum of the values, then one reciprocal of the normalizer. -/
def outLate (q : Fin d → EReal) (k : Fin n → Fin d → EReal) (v : Fin n → Fin c → EReal) (e : Fin c) : EReal :=
  (∑ j : Fin n, weight q k j * v j e) * Ideal.div 1 (normalizer q k)

/-- The output at column e, normalized EARLY: each weight divided by the normalizer, then the weighted sum. -/
def outEarly (q : Fin d → EReal) (k : Fin n → Fin d → EReal) (v : Fin n → Fin c → EReal) (e : Fin c) : EReal :=
  ∑ j : Fin n, Ideal.div (weight q k j) (normalizer q k) * v j e

/-- The fold of max from the bottom over finitely many reals is the bottom only over the empty set; otherwise it is a
    real (the maximum of the terms, though only its being real is used). -/
theorem fold_max_coe {ι : Type} (s : Finset ι) (g : ι → ℝ) :
    (s.fold max (⊥ : EReal) (fun i => (g i : EReal)) = ⊥ ∧ s = ∅)
      ∨ ∃ M : ℝ, s.fold max (⊥ : EReal) (fun i => (g i : EReal)) = (M : EReal) := by
  classical
  induction s using Finset.induction_on with
  | empty => exact Or.inl ⟨Finset.fold_empty, rfl⟩
  | insert a s ha ih =>
    refine Or.inr ?_
    rw [Finset.fold_insert ha]
    rcases ih with ⟨h, _⟩ | ⟨M, h⟩
    · exact ⟨g a, by rw [h]; exact max_eq_left bot_le⟩
    · exact ⟨max (g a) M, by rw [h, PlainMatmul.coe_max]⟩

/-- Where every entry of the query row, the keys and the values is a real number and there is at least one key, the
    two arrangements give the same output. -/
theorem outLate_eq_outEarly (hn : 0 < n) (q : Fin d → EReal) (k : Fin n → Fin d → EReal) (v : Fin n → Fin c → EReal)
    (hq : ∀ e, ∃ r : ℝ, q e = (r : EReal)) (hk : ∀ j e, ∃ r : ℝ, k j e = (r : EReal))
    (hv : ∀ j e, ∃ r : ℝ, v j e = (r : EReal)) (e : Fin c) : outLate q k v e = outEarly q k v e := by
  choose qr hq using hq
  choose kr hk using hk
  choose vr hv using hv
  -- every score is the real inner product
  have hs : ∀ j, score q k j = ((∑ e : Fin d, qr e * kr j e : ℝ) : EReal) := fun j => by
    unfold score
    rw [PlainMatmul.coe_sum]
    exact Finset.sum_congr rfl fun e _ => by rw [hq e, hk j e, EReal.coe_mul]
  -- the row maximum is a real: there is at least one key
  obtain ⟨M, hM⟩ : ∃ M : ℝ, rowMax q k = (M : EReal) := by
    unfold rowMax
    rw [show (fun j => score q k j) = fun j => ((∑ e : Fin d, qr e * kr j e : ℝ) : EReal) from funext hs]
    rcases fold_max_coe (Finset.univ : Finset (Fin n)) (fun j => ∑ e : Fin d, qr e * kr j e) with ⟨_, h0⟩ | h
    · exact absurd (Finset.mem_univ (⟨0, hn⟩ : Fin n)) (by rw [h0]; exact Finset.notMem_empty _)
    · exact h
  -- every weight is the exponential of a real
  have hw : ∀ j, weight q k j = ((Real.exp ((∑ e : Fin d, qr e * kr j e) - M) : ℝ) : EReal) := fun j => by
    unfold weight
    rw [hs j, hM, ← EReal.coe_sub]
    rfl
  -- the normalizer is a positive real
  have hL : normalizer q k = ((∑ j : Fin n, Real.exp ((∑ e : Fin d, qr e * kr j e) - M) : ℝ) : EReal) := by
    unfold normalizer
    rw [PlainMatmul.coe_sum]
    exact Finset.sum_congr rfl fun j _ => hw j
  have hpos : (0 : ℝ) < ∑ j : Fin n, Real.exp ((∑ e : Fin d, qr e * kr j e) - M) :=
    Finset.sum_pos (fun j _ => Real.exp_pos _) ⟨⟨0, hn⟩, Finset.mem_univ _⟩
  have hne : (∑ j : Fin n, Real.exp ((∑ e : Fin d, qr e * kr j e) - M)) ≠ 0 := ne_of_gt hpos
  -- both arrangements are the coercion of one real
  unfold outLate outEarly
  rw [hL, Ideal.div_coe hne, one_mul]
  have hl : (∑ j : Fin n, weight q k j * v j e)
      = ((∑ j : Fin n, Real.exp ((∑ e : Fin d, qr e * kr j e) - M) * vr j e : ℝ) : EReal) := by
    rw [PlainMatmul.coe_sum]
    exact Finset.sum_congr rfl fun j _ => by rw [hw j, hv j e, EReal.coe_mul]
  have hr : (∑ j : Fin n, Ideal.div (weight q k j)
        ((∑ j : Fin n, Real.exp ((∑ e : Fin d, qr e * kr j e) - M) : ℝ) : EReal) * v j e)
      = ((∑ j : Fin n, Real.exp ((∑ e : Fin d, qr e * kr j e) - M)
            * (1 / ∑ j : Fin n, Real.exp ((∑ e : Fin d, qr e * kr j e) - M)) * vr j e : ℝ) : EReal) := by
    refine Eq.trans ?_ (PlainMatmul.coe_sum _ _).symm
    exact Finset.sum_congr rfl fun j _ => by rw [Ideal.div_coe hne, hw j, hv j e, EReal.coe_mul, EReal.coe_mul]
  rw [hl, hr, ← EReal.coe_mul, Finset.sum_mul]
  exact congrArg _ (Finset.sum_congr rfl fun j _ => by ring)

end AttentionRow

end
-- ==== Proof.AttentionArray.lean ====
/-
  Attention over whole arrays, free of any program.

  For arrays Q, K, V of shape [32, 2048, 64] (batch b, sequence position, head coordinate) the output at (b, r, e) is
  one attention row: the query row Q(b, r, ·) against the 2048 key rows K(b, j, ·) and value rows V(b, j, ·) of the SAME
  batch b, read at column e.  Two whole-array functions, one per arrangement of the normalization (late: one reciprocal
  per row after the product with the values; early: every weight divided first), and their equality where every entry
  of the three arrays is a real number.  Also the f32 word of minus infinity read as the bottom extended real: the value
  both row maxima start from.
-/
import proofs.«404728_j7713761263844_3_alg».proof.Proof.RowSoftmax
import Idealize.ShloMosaic.Lib.ValueIdx

noncomputable section

namespace AttentionRow

open Idealize.ShloMosaic Idealize.ShloMosaic.ValueIdx

/-- An array of extended reals with three axes of the given extents. -/
abbrev Arr3 (B L E : Nat) : Type := (⟨3, ![B, L, E]⟩ : Shape).Idx → EReal

/-- Row r of batch b, as a function of the last coordinate. -/
def qRow {B L E : Nat} (Q : Arr3 B L E) (b : Fin B) (r : Fin L) : Fin E → EReal := fun e => Q (ix3 b r e)

/-- All rows of batch b, as a function of the row and the last coordinate. -/
def rows {B L E : Nat} (K : Arr3 B L E) (b : Fin B) : Fin L → Fin E → EReal := fun j e => K (ix3 b j e)

/-- Attention with the normalization applied LATE, as one function of the three arrays. -/
def attnLate (Q K V : Arr3 32 2048 64) : Arr3 32 2048 64 := fun i =>
  outLate (qRow Q ⟨(i 0).val, (i 0).isLt⟩ ⟨(i 1).val, (i 1).isLt⟩) (rows K ⟨(i 0).val, (i 0).isLt⟩)
    (rows V ⟨(i 0).val, (i 0).isLt⟩) ⟨(i 2).val, (i 2).isLt⟩

/-- Attention with the normalization applied EARLY, as one function of the three arrays. -/
def attnEarly (Q K V : Arr3 32 2048 64) : Arr3 32 2048 64 := fun i =>
  outEarly (qRow Q ⟨(i 0).val, (i 0).isLt⟩ ⟨(i 1).val, (i 1).isLt⟩) (rows K ⟨(i 0).val, (i 0).isLt⟩)
    (rows V ⟨(i 0).val, (i 0).isLt⟩) ⟨(i 2).val, (i 2).isLt⟩

theorem attnLate_ix3 (Q K V : Arr3 32 2048 64) (b : Fin 32) (r : Fin 2048) (e : Fin 64) :
    attnLate Q K V (ix3 b r e) = outLate (qRow Q b r) (rows K b) (rows V b) e := rfl

theorem attnEarly_ix3 (Q K V : Arr3 32 2048 64) (b : Fin 32) (r : Fin 2048) (e : Fin 64) :
    attnEarly Q K V (ix3 b r e) = outEarly (qRow Q b r) (rows K b) (rows V b) e := rfl

/-- Where every entry of the three arrays is a real number the two arrangements are one function: row by row, the law
    of one attention row (there are 2048 keys, so a row has at least one). -/
theorem attnLate_eq_attnEarly (Q K V : Arr3 32 2048 64) (hQ : ∀ i, ∃ x : ℝ, Q i = (x : EReal))
    (hK : ∀ i, ∃ x : ℝ, K i = (x : EReal)) (hV : ∀ i, ∃ x : ℝ, V i = (x : EReal)) : attnLate Q K V = attnEarly Q K V :=
  funext fun _ => outLate_eq_outEarly (by decide) _ _ _ (fun _ => hQ _) (fun _ _ => hK _) (fun _ _ => hV _) _

/-- The f32 word of minus infinity denotes the bottom extended real. -/
theorem ofBits_neg_inf_f32 : Ideal.ofBits .f32 0xFF800000#32 = ⊥ := by simp [Ideal.ofBits, Ideal.ieee]

end AttentionRow

end
-- ==== Proof.LibRowOps.lean ====
/-
  General lemmas, free of any program: a rank-2 vector read row by row at the ideal values.

  * A `tpu.matmul` of an m×k block by an n×k block, the right operand contracted on its LAST axis (the product with
    the transpose), into the zero accumulator, read at the entry (a, b): the plain sum over the contracted coordinate c
    of A(a, c) · B(b, c).  Stated for the record `DotDims.transposedRhs m k n` and for any record equal to it.
  * The keepdims column forms: a vector of length a cast to an a×1 column reads its entry i at (i, 0); an a×1 column
    broadcast to a×b reads, at (p, c), the column's entry p.
  * A lane reduction of an a×b vector over its second axis, read at row r: by `add` from the zero word, the sum over
    the row's b entries; by `maximumf`, the fold of max over them from the accumulator word's value.
-/
import Idealize.ShloMosaic.PureOps.Ideal.Laws
import Idealize.ShloMosaic.Lib.ValueIdx
import Idealize.ShloMosaic.Lib.Pipeline.Value

noncomputable section

namespace RowOps

open Idealize.ShloMosaic Idealize.ShloMosaic.ValueIdx

/-- The entry (a, b) of the product of an m×k matrix by the transpose of an n×k matrix, accumulated into zero, is
    `∑ c, A(a, c) · B(b, c)`. -/
theorem matmul_transposedRhs_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (F := Ideal) (DotDims.transposedRhs m k n) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply, ← Equiv.sum_comp (contrEquiv1 (DotDims.transposedRhs m k n) k rfl rfl).symm]
  refine Finset.sum_congr rfl fun c _ => ?_
  -- the contraction index built from c has c on its one axis
  have hc := contrEquiv1_symm_val (DotDims.transposedRhs m k n) k rfl rfl c
  -- the left operand is read at (a, c): axis 0 is the output's row, axis 1 the contracted coordinate
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => exact ((DotDims.transposedRhs m k n).lhsIdx_val_of_single rfl (ix2 a b) _).trans hc
  -- the right operand is read at (b, c): axis 0 is the output's column, axis 1 the contracted coordinate
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => exact ((DotDims.transposedRhs m k n).rhsIdx_val_of_single rfl (ix2 a b) _).trans hc
  rw [hl, hr]

/-- The same for any record that IS the transposed-right one. -/
theorem matmul_transposedRhs_zero_apply_of_eq {m k n : Nat} {φ₁ φ₂ : FTy}
    (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul (F := Ideal) d prec A B (constant ⟨2, ![m, n]⟩ .f32 0x00000000#32) (ix2 a b)
      = ∑ c : Fin k, A (ix2 a c) * B (ix2 b c) := by
  subst hd; exact matmul_transposedRhs_zero_apply prec A B a b

variable {α : Type}

/-- A vector of length a cast to an a×1 column reads, at (i, u), the vector's entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An a×1 column broadcast to a×b reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A lane sum of an a×b f32 vector over its second axis, from the zero word, read at row r: the sum of the row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- A lane maximum of an a×b f32 vector over its second axis, read at row r: the fold of max over the row, from the
    accumulator word's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f => (Finset.univ : Finset (Fin b)).fold max (Ideal.ofBits .f32 acc) f)
      (funext fun k => congrArg src (funext fun ax => Fin.ext (by
        match ax with
        | ⟨0, _⟩ => rfl
        | ⟨1, _⟩ => rfl))))

end RowOps

end
-- ==== Proof.KernelRow.lean ====
/-
  The kernel body's stored value is one attention row, normalized LATE.

  At a grid point the body holds a block q of 1024 query rows, and all 2048 key rows k and value rows v of the same
  batch, each as a [1, ·, 64] block.  Its arithmetic (changes of float format are the identity at the ideal values):
    scores   S(r, j) = ∑ e, q(r, e) · k(j, e)          a product with the transpose of k, into a zero accumulator;
    maximum  M(r)    = the fold of max over j of S(r, j) from minus infinity;
    weights  W(r, j) = exp (S(r, j) - M(r));
    row sums L(r)    = ∑ j, W(r, j)                      from zero;
    product  P(r, e) = ∑ j, W(r, j) · v(j, e)            a plain product, into a zero accumulator;
    output   O(r, e) = P(r, e) · (1 / L(r)).
  Each stage is named below as the printed operations spell it, and read at an entry; the stored value at (0, r, e) is
  the late arrangement of the attention row with query q(0, r, ·), keys k(0, ·, ·) and values v(0, ·, ·).
-/
import proofs.«404728_j7713761263844_3_alg».proof.Proof.Gen.KernelIdeal.Skeleton
import proofs.«404728_j7713761263844_3_alg».proof.Proof.AttentionArray
import proofs.«404728_j7713761263844_3_alg».proof.Proof.LibPlainMatmul
import proofs.«404728_j7713761263844_3_alg».proof.Proof.LibRowOps
import Idealize.ShloMosaic.Lib.ValueLayout
import Idealize.ShloMosaic.Lib.IdealHost

noncomputable section

namespace Cert.KernelIdeal.Row

open Cert.KernelIdeal Cert.KernelIdeal.Gen
open Idealize.ShloMosaic Idealize.ShloMosaic.ValueIdx AttentionRow

variable (x0 : Vec Ideal S1x1024x64 .f32) (x1 x2 : Vec Ideal S1x2048x64 .f32)

/-- The query block as a 1024×64 matrix. -/
def qMat : FVec Ideal S1024x64 .bf16 :=
  truncf .bf16 (shapeCast S1024x64 x0 shapeCasts_S1x1024x64_S1024x64) bitsLt_bf16_f32

/-- A key or value block as a 2048×64 matrix. -/
def kvMat (x : Vec Ideal S1x2048x64 .f32) : FVec Ideal S2048x64 .bf16 :=
  truncf .bf16 (shapeCast S2048x64 x shapeCasts_S1x2048x64_S2048x64) bitsLt_bf16_f32

/-- The scores: the query matrix times the transpose of the key matrix. -/
def scores : FVec Ideal S1024x2048 .f32 :=
  matmul dot_S1024x64_S2048x64_S1024x2048_1_1_0_0_n_n none (qMat x0) (kvMat x1) (constant S1024x2048 .f32 0x00000000#32)

/-- The row maxima of the scores. -/
def maxima : FVec Ideal S1024 .f32 :=
  multiReduction .maximumf [1] S1024 (scores x0 x1) 0xFF800000#32 reduces_S1024x2048_S1024 (.inl rfl) rfl

/-- The weights: the exponential of each score less its row's maximum. -/
def weights : FVec Ideal S1024x2048 .f32 :=
  exp (subf (scores x0 x1)
    (broadcastTo S1024x2048 (shapeCast S1024x1 (maxima x0 x1) shapeCasts_S1024_S1024x1) broadcasts_S1024x1_S1024x2048))

/-- The row sums of the weights. -/
def rowSums : FVec Ideal S1024 .f32 :=
  multiReduction .add [1] S1024 (weights x0 x1) 0x00000000#32 reduces_S1024x2048_S1024 (.inl rfl) rfl

/-- The weights times the value matrix. -/
def weighted : FVec Ideal S1024x64 .f32 :=
  matmul dot_S1024x2048_S2048x64_S1024x64_1_0_0_1_n_n none (truncf .bf16 (weights x0 x1) bitsLt_bf16_f32) (kvMat x2)
    (constant S1024x64 .f32 0x00000000#32)

/-- The body's stored value is the weighted values times the reciprocal of the row sums, as a [1, 1024, 64] block. -/
theorem payload_eq : k0_pay1 (F := Ideal) x0 x1 x2
    = shapeCast S1x1024x64
        (mulf (weighted x0 x1 x2)
          (broadcastTo S1024x64
            (divf (broadcast S1024x1 (Scalar.ofBits .f32 0x3F800000#32))
              (shapeCast S1024x1 (rowSums x0 x1) shapeCasts_S1024_S1024x1))
            broadcasts_S1024x1_S1024x64))
        shapeCasts_S1024x64_S1x1024x64 := rfl

/-- The query matrix at (r, e) is the block at (0, r, e). -/
theorem qMat_at (r : Fin 1024) (e : Fin 64) : qMat x0 (ix2 r e) = x0 (ix3 (0 : Fin 1) r e) :=
  shapeCast_1ab_ab_apply x0 shapeCasts_S1x1024x64_S1024x64 r e

/-- A key or value matrix at (j, e) is the block at (0, j, e). -/
theorem kvMat_at (x : Vec Ideal S1x2048x64 .f32) (j : Fin 2048) (e : Fin 64) : kvMat x (ix2 j e) = x (ix3 (0 : Fin 1) j e) :=
  shapeCast_1ab_ab_apply x shapeCasts_S1x2048x64_S2048x64 j e

/-- The score at (r, j): the inner product of query row r and key row j. -/
theorem scores_at (r : Fin 1024) (j : Fin 2048) :
    scores x0 x1 (ix2 r j) = score (qRow x0 0 r) (rows x1 0) j := by
  unfold scores
  refine (RowOps.matmul_transposedRhs_zero_apply_of_eq _ rfl none (qMat x0) (kvMat x1) r j).trans ?_
  unfold score qRow rows
  exact Finset.sum_congr rfl fun e _ => by rw [qMat_at, kvMat_at]

/-- The maximum of row r: the fold of max over its 2048 scores from the bottom element. -/
theorem maxima_at (r : Fin 1024) : maxima x0 x1 (ix1 r) = rowMax (qRow x0 0 r) (rows x1 0) := by
  unfold maxima
  refine (RowOps.rowMax_apply (scores x0 x1) 0xFF800000#32 reduces_S1024x2048_S1024 (.inl rfl) rfl r).trans ?_
  rw [ofBits_neg_inf_f32, show (fun k => scores x0 x1 (ix2 r k)) = fun k => score (qRow x0 0 r) (rows x1 0) k from
    funext fun k => scores_at x0 x1 r k]
  rfl

/-- The weight at (r, j). -/
theorem weights_at (r : Fin 1024) (j : Fin 2048) :
    weights x0 x1 (ix2 r j) = weight (qRow x0 0 r) (rows x1 0) j := by
  unfold weights weight
  show Ideal.exp (scores x0 x1 (ix2 r j)
    - broadcastTo S1024x2048 (shapeCast S1024x1 (maxima x0 x1) shapeCasts_S1024_S1024x1) broadcasts_S1024x1_S1024x2048 (ix2 r j)) = _
  rw [RowOps.broadcastTo_a1_ab_apply, RowOps.shapeCast_a_a1_apply, scores_at, maxima_at]

/-- The sum of row r of the weights: the normalizer. -/
theorem rowSums_at (r : Fin 1024) : rowSums x0 x1 (ix1 r) = normalizer (qRow x0 0 r) (rows x1 0) := by
  unfold rowSums
  refine (RowOps.rowSum_apply (weights x0 x1) 0x00000000#32 reduces_S1024x2048_S1024 (.inl rfl) rfl r).trans ?_
  unfold normalizer
  exact Finset.sum_congr rfl fun k _ => weights_at x0 x1 r k

/-- The weighted values at (r, e). -/
theorem weighted_at (r : Fin 1024) (e : Fin 64) :
    weighted x0 x1 x2 (ix2 r e) = ∑ j : Fin 2048, weight (qRow x0 0 r) (rows x1 0) j * rows x2 0 j e := by
  unfold weighted
  refine (PlainMatmul.matmul_zero_apply_of_eq _ rfl none (truncf .bf16 (weights x0 x1) bitsLt_bf16_f32) (kvMat x2) r e).trans ?_
  refine Finset.sum_congr rfl fun j _ => ?_
  show weights x0 x1 (ix2 r j) * kvMat x2 (ix2 j e) = _
  rw [weights_at, kvMat_at]
  rfl

/-- THE STORED VALUE at (0, r, e): the attention row of query row r against the block's keys and values, at column e,
    with the normalization applied late. -/
theorem payload_at (u : Fin 1) (r : Fin 1024) (e : Fin 64) :
    k0_pay1 (F := Ideal) x0 x1 x2 (ix3 u r e) = outLate (qRow x0 0 r) (rows x1 0) (rows x2 0) e := by
  rw [payload_eq, shapeCast_ab_1ab_apply]
  show weighted x0 x1 x2 (ix2 r e)
    * broadcastTo S1024x64
        (divf (broadcast S1024x1 (Scalar.ofBits .f32 0x3F800000#32))
          (shapeCast S1024x1 (rowSums x0 x1) shapeCasts_S1024_S1024x1))
        broadcasts_S1024x1_S1024x64 (ix2 r e) = _
  rw [RowOps.broadcastTo_a1_ab_apply]
  show weighted x0 x1 x2 (ix2 r e)
    * Ideal.div (Ideal.ofBits .f32 0x3F800000#32)
        (shapeCast S1024x1 (rowSums x0 x1) shapeCasts_S1024_S1024x1 (ix2 r (0 : Fin 1))) = _
  rw [RowOps.shapeCast_a_a1_apply, Ideal.ofBits_one_f32, weighted_at, rowSums_at]
  rfl

end Cert.KernelIdeal.Row

end
-- ==== Proof.KernelBlocks.lean ====
/-
  From the blocks to the whole array: after the run the kernel's output array is attention, normalized late, of the
  three argument arrays.

  The grid has 32 × 2 points (b, h).  At the point (b, h) the query window holds rows h·1024 … h·1024 + 1023 of batch b,
  the key and value windows hold ALL 2048 rows of batch b (their block index does not depend on h), and the output
  window writes rows h·1024 … h·1024 + 1023 of batch b.  So the entry (0, r, e) of the written block is the array entry
  (b, h·1024 + r, e), and the body's value there — one attention row of query row r of the block against the block's
  keys and values — is the attention row of query row h·1024 + r of batch b against batch b's keys and values: the
  whole-array function read through the output block.  The 64 output blocks tile the array (the point that covers the
  entry (b, p, e) is (b, p / 1024)), so the array after the run is that function everywhere.
-/
import proofs.«404728_j7713761263844_3_alg».proof.Proof.Gen.KernelIdeal.Value
import proofs.«404728_j7713761263844_3_alg».proof.Proof.KernelRow

set_option maxRecDepth 16384

noncomputable section

namespace Cert.KernelIdeal.Blocks

open Cert.KernelIdeal Cert.KernelIdeal.Gen Cert.KernelIdeal.Value
open Idealize.ShloMosaic Idealize.ShloMosaic.TcCoe Idealize.SL.Sem
open Idealize.ShloMosaic.Pipeline (Dat)
open Idealize.ShloMosaic.ValueIdx AttentionRow

variable (m : (ℓ : Loc nD τ sig) → Buf (Elt Ideal) ℓ) (ρ : Dev nD → PrngReg)

theorem origin_eq : (![0, 0, 0] : Fin 3 → Nat) = fun _ => 0 := funext fun a => by fin_cases a <;> rfl

/-- The printed index maps, decided over the 64 grid points: the query window moves with the output window on the
    batch and row-block axes, the key and value windows follow it on the batch axis only and stay at row block 0, every
    window stays at block 0 on the head axis, and the output's block indices stay in their ranges. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 32 ∧ win0_3.index t (1 : Fin 3) < 2 ∧ win0_3.index t (2 : Fin 3) = 0 :=
  (by decide +kernel : ∀ t : Fin grid0.N, _)

/-- Every output block is some point's. -/
theorem idx_onto : ∀ (q0 : Fin 32) (q1 : Fin 2), ∃ t : Fin cfg0.N, win0_3.index t = ![q0.val, q1.val, 0] :=
  (by decide +kernel : ∀ (q0 : Fin 32) (q1 : Fin 2), ∃ t : Fin grid0.N, win0_3.index t = ![q0.val, q1.val, 0])

/-- One entry of a written block, over blocks that are the windows of whole arrays Q, K, W at batch b and row block h:
    the body's value at the block entry y is the whole-array attention at the array entry i that y sits at. -/
theorem block_entry (Q K W : Arr3 32 2048 64) (x0 : Vec Ideal S1x1024x64 .f32) (x1 x2 : Vec Ideal S1x2048x64 .f32)
    (b h : ℕ) (hb : b < 32) (hh : h < 2)
    (h0 : ∀ (r : Fin 1024) (e : Fin 64),
      x0 (ix3 (0 : Fin 1) r e) = Q (ix3 (⟨b, hb⟩ : Fin 32) (⟨h * 1024 + r.val, by omega⟩ : Fin 2048) e))
    (h1 : ∀ (j : Fin 2048) (e : Fin 64), x1 (ix3 (0 : Fin 1) j e) = K (ix3 (⟨b, hb⟩ : Fin 32) j e))
    (h2 : ∀ (j : Fin 2048) (e : Fin 64), x2 (ix3 (0 : Fin 1) j e) = W (ix3 (⟨b, hb⟩ : Fin 32) j e))
    (y : S1x1024x64.Idx) (i : S32x2048x64.Idx)
    (hi0 : (i 0).val = b) (hi1 : (i 1).val = h * 1024 + (y 1).val) (hi2 : (i 2).val = (y 2).val) :
    k0_pay1 (F := Ideal) x0 x1 x2 y = attnLate Q K W i := by
  obtain ⟨u, r, e, rfl⟩ : ∃ (u : Fin 1) (r : Fin 1024) (e : Fin 64), y = ix3 u r e := ⟨y 0, y 1, y 2, eq_ix3 y⟩
  have hi : i = ix3 (⟨b, hb⟩ : Fin 32) (⟨h * 1024 + r.val, by omega⟩ : Fin 2048) e :=
    funext fun a => Fin.ext (by
      match a with
      | ⟨0, _⟩ => exact hi0
      | ⟨1, _⟩ => exact hi1
      | ⟨2, _⟩ => exact hi2)
  rw [hi, Row.payload_at, attnLate_ix3,
    show qRow x0 0 r = qRow Q (⟨b, hb⟩ : Fin 32) (⟨h * 1024 + r.val, by omega⟩ : Fin 2048) from funext fun e => h0 r e,
    show rows x1 0 = rows K (⟨b, hb⟩ : Fin 32) from funext fun j => funext fun e => h1 j e,
    show rows x2 0 = rows W (⟨b, hb⟩ : Fin 32) from funext fun j => funext fun e => h2 j e]

/-- WHAT POINT t WRITES BACK is block t of the whole-array attention of the argument arrays as the region finds them. -/
theorem flushed_eq (c : Dev nD) (t : Fin cfg0.N) :
    (dats m 0 c).flushed 3 t
      = ((cfg0.win 3).blk t).view.read (Elt Ideal) (attnLate (V m c main_arg0) (V m c main_arg1) (V m c main_arg2)) := by
  rw [flushed3]
  unfold out0_3
  rw [View.canon_unit_zero origin_eq]
  simp only [View.ld_unit_zero (S := S1x1024x64) origin_eq, View.ld_unit_zero (S := S1x2048x64) origin_eq]
  obtain ⟨a0, a1, a2, b0, b1, b2, c0, c1, c2, d0, d1, d2⟩ := idx_facts t
  funext y
  show k0_pay1 (F := Ideal) (iblk m c 0 t) (iblk m c 1 t) (iblk m c 2 t) y
    = attnLate (V m c main_arg0) (V m c main_arg1) (V m c main_arg2) (((cfg0.win 3).blk t).view.emb y)
  refine block_entry (V m c main_arg0) (V m c main_arg1) (V m c main_arg2) (iblk m c 0 t) (iblk m c 1 t) (iblk m c 2 t)
    (win0_3.index t (0 : Fin 3)) (win0_3.index t (1 : Fin 3)) d0 d1 ?_ ?_ ?_ y _ ?_ ?_ ?_
  · intro r e
    show V m c main_arg0 (((cfg0.win 0).blk t).view.emb (ix3 (0 : Fin 1) r e)) = _
    refine congrArg (V m c main_arg0) (funext fun a => Fin.ext ?_)
    match a with
    | ⟨0, _⟩ => show win0_0.index t (0 : Fin 3) * 1 + 1 * 0 = win0_3.index t (0 : Fin 3); omega
    | ⟨1, _⟩ => show win0_0.index t (1 : Fin 3) * 1024 + 1 * r.val = win0_3.index t (1 : Fin 3) * 1024 + r.val; omega
    | ⟨2, _⟩ => show win0_0.index t (2 : Fin 3) * 64 + 1 * e.val = e.val; omega
  · intro j e
    show V m c main_arg1 (((cfg0.win 1).blk t).view.emb (ix3 (0 : Fin 1) j e)) = _
    refine congrArg (V m c main_arg1) (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * j.val = j.val; omega
    | ⟨2, _⟩ => show win0_1.index t (2 : Fin 3) * 64 + 1 * e.val = e.val; omega
  · intro j e
    show V m c main_arg2 (((cfg0.win 2).blk t).view.emb (ix3 (0 : Fin 1) j e)) = _
    refine congrArg (V m c main_arg2) (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * j.val = j.val; omega
    | ⟨2, _⟩ => show win0_2.index t (2 : Fin 3) * 64 + 1 * e.val = e.val; omega
  · show win0_3.index t (0 : Fin 3) * 1 + 1 * (y 0).val = win0_3.index t (0 : Fin 3)
    have hy : (y 0).val < 1 := (y 0).isLt
    omega
  · show win0_3.index t (1 : Fin 3) * 1024 + 1 * (y 1).val = win0_3.index t (1 : Fin 3) * 1024 + (y 1).val
    omega
  · show win0_3.index t (2 : Fin 3) * 64 + 1 * (y 2).val = (y 2).val
    omega

/-- An index of the array is in point t's block iff each coordinate is in the block's range on its axis. -/
theorem mem_blk (t : Fin cfg0.N) (i : S32x2048x64.Idx) :
    i ∈ ((cfg0.win 3).blk t).view.set ↔ ∀ a : Fin 3, win0_3.index t a * S1x1024x64.size a ≤ (i a).val
      ∧ (i a).val < win0_3.index t a * S1x1024x64.size a + S1x1024x64.size a := by
  show i ∈ ((View.whole main_v0).slice (win0_3.rect t)).set ↔ _
  rw [View.set_slice_whole, Rect.mem_set_unit]
  exact Iff.rfl

/-- The output blocks cover the array: the entry (b, p, e) is in the block of the point (b, p / 1024). -/
theorem cover (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 64 ≤ (i 2).val ∧ (i 2).val < win0_3.index t (2 : Fin 3) * 64 + 64
    omega

/-- THE ARRAY after the run: attention, normalized late, of the argument arrays. -/
theorem final (c : Dev nD) :
    (dats m 0 c).arrAt 3 cfg0.N = attnLate (V m c main_arg0) (V m c main_arg1) (V m c main_arg2) :=
  (dats m 0 c).arrAt_eq_of_cover 3 (attnLate (V m c main_arg0) (V m c main_arg1) (V m c main_arg2))
    (fun t _ => flushed_eq m c t) cover

/-- The run re-posted: the output array at attention of the arguments, the arguments unchanged. -/
theorem run : θ_run defs (onTc (τ := τ) (main (F := Ideal))) ⟨m, fun _ => 0, ρ⟩ fun r => ∀ c : Dev nD,
      r.2.mem ((c : Thread nD τ).loc main_v0)
        = attnLate (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Blocks

end
-- ==== Proof.ReferenceRows.lean ====
/-
  The reference program's result is attention with the normalization applied EARLY.

  The reference computes, over whole arrays: the scores S(b, r, j) = ∑ e, Q(b, r, e) · K(b, j, e) (a batched product
  contracting the head coordinate of both operands); the row maximum, a reduction by max over j from minus infinity,
  then once more the maximum with minus infinity (which changes nothing: minus infinity is the bottom element); the
  weights exp (S - max); their row sums from zero; the quotient of every weight by its row's sum; and the batched
  product of those quotients with V, contracting j.  Read at (b, r, e), stage by stage, this is the early arrangement
  of one attention row: query row Q(b, r, ·), keys K(b, ·, ·), values V(b, ·, ·).
-/
import proofs.«404728_j7713761263844_3_alg».proof.Proof.Gen.ReferenceIdeal.Read
import proofs.«404728_j7713761263844_3_alg».proof.Proof.AttentionArray
import Idealize.ShloMosaic.PureOps.Reduce

noncomputable section

namespace Cert.ReferenceIdeal.Rows

open Cert.ReferenceIdeal Cert.ReferenceIdeal.Gen Cert.ReferenceIdeal.Read
open Idealize.ShloMosaic Idealize.ShloMosaic.ValueIdx AttentionRow

/-- The contents of an argument array at the ideal values. -/
abbrev Arr : Type := (⟨S32x2048x64, .f32⟩ : BufTy).Contents (Elt Ideal)

/-- The score stage at (b, r, j): the inner product of query row r and key row j of batch b. -/
theorem score_at (x0 x1 : Arr) (b : Fin 32) (r j : Fin 2048) :
    val_main_v0 (F := Ideal) x0 x1 (ix3 b r j) = score (qRow x0 b r) (rows x1 b) j := by
  rw [val_main_v0_apply]
  unfold score qRow rows
  refine Finset.sum_congr rfl fun k _ => ?_
  rw [show lidx_main_v0 (ix3 b r j) k = ix3 b r k from
        funext fun a => Fin.ext (by match a with | ⟨0, _⟩ => rfl | ⟨1, _⟩ => rfl | ⟨2, _⟩ => rfl),
      show ridx_main_v0 (ix3 b r j) k = ix3 b j k from
        funext fun a => Fin.ext (by match a with | ⟨0, _⟩ => rfl | ⟨1, _⟩ => rfl | ⟨2, _⟩ => rfl)]

/-- The reduction by max at (b, r): the fold of max over the 2048 scores of the row, from minus infinity. -/
theorem reduce_max_at (x0 x1 : Arr) (b : Fin 32) (r : Fin 2048) :
    val_main_v1 (F := Ideal) x0 x1 (ix2 b r) = rowMax (qRow x0 b r) (rows x1 b) := by
  have h : Shape.Reduces S32x2048x2048 [2] S32x2048 := by decide
  unfold val_main_v1
  rw [Host.reduce_eq_fold_single FloatOps.maximumf _ _ reducesTo_S32x2048x2048_S32x2048_d2 h h_S_]
  have hf : (val_main_v0 (F := Ideal) x0 x1 ∘ h.lift (ix2 b r)) = fun j : Fin 2048 => score (qRow x0 b r) (rows x1 b) j :=
    funext fun j => by
      show val_main_v0 (F := Ideal) x0 x1 (h.lift (ix2 b r) j) = _
      rw [show h.lift (ix2 b r) j = ix3 b r j from
        funext fun a => Fin.ext (by match a with | ⟨0, _⟩ => rfl | ⟨1, _⟩ => rfl | ⟨2, _⟩ => rfl)]
      exact score_at x0 x1 b r j
  rw [hf]
  show Finset.fold max (Ideal.ofBits .f32 0xFF800000#32) _ _ = _
  rw [ofBits_neg_inf_f32]
  rfl

/-- The maximum with minus infinity leaves the row maximum as it is. -/
theorem max_at (x0 x1 : Arr) (b : Fin 32) (r : Fin 2048) :
    val_main_v3 (F := Ideal) x0 x1 (ix2 b r) = rowMax (qRow x0 b r) (rows x1 b) := by
  rw [val_main_v3_apply, val_main_v2_apply, val_main_cst_0_apply, reduce_max_at]
  show max (Ideal.ofBits .f32 0xFF800000#32) _ = _
  rw [ofBits_neg_inf_f32]
  exact max_eq_right bot_le

/-- The row maximum spread along the row. -/
theorem max_bcast_at (x0 x1 : Arr) (b : Fin 32) (r j : Fin 2048) :
    val_main_v5 (F := Ideal) x0 x1 (ix3 b r j) = rowMax (qRow x0 b r) (rows x1 b) := by
  rw [val_main_v5_apply, val_main_v4_apply,
    show idx_main_v4 (idx_main_v5 (ix3 b r j)) = ix2 b r from
      funext fun a => Fin.ext (by match a with | ⟨0, _⟩ => rfl | ⟨1, _⟩ => rfl)]
  exact max_at x0 x1 b r

/-- The weight stage at (b, r, j). -/
theorem weight_at (x0 x1 : Arr) (b : Fin 32) (r j : Fin 2048) :
    val_main_v7 (F := Ideal) x0 x1 (ix3 b r j) = weight (qRow x0 b r) (rows x1 b) j := by
  rw [val_main_v7_apply, val_main_v6_apply, score_at, max_bcast_at]
  rfl

/-- The row sum of the weights at (b, r): from zero, so the plain sum. -/
theorem normalizer_at (x0 x1 : Arr) (b : Fin 32) (r : Fin 2048) :
    val_main_v8 (F := Ideal) x0 x1 (ix2 b r) = normalizer (qRow x0 b r) (rows x1 b) := by
  rw [val_main_v8_apply, val_main_cst_1_apply]
  show Ideal.ofBits .f32 0x00000000#32 + _ = _
  rw [Ideal.ofBits_zero_f32, zero_add]
  unfold normalizer
  refine Finset.sum_congr rfl fun k _ => ?_
  rw [show idx_main_v8 (ix2 b r) k = ix3 b r k from
    funext fun a => Fin.ext (by match a with | ⟨0, _⟩ => rfl | ⟨1, _⟩ => rfl | ⟨2, _⟩ => rfl)]
  exact weight_at x0 x1 b r k

/-- The row sum spread along the row. -/
theorem normalizer_bcast_at (x0 x1 : Arr) (b : Fin 32) (r j : Fin 2048) :
    val_main_v10 (F := Ideal) x0 x1 (ix3 b r j) = normalizer (qRow x0 b r) (rows x1 b) := by
  rw [val_main_v10_apply, val_main_v9_apply,
    show idx_main_v9 (idx_main_v10 (ix3 b r j)) = ix2 b r from
      funext fun a => Fin.ext (by match a with | ⟨0, _⟩ => rfl | ⟨1, _⟩ => rfl)]
  exact normalizer_at x0 x1 b r

/-- The normalized weight at (b, r, j): the weight divided by its row's sum. -/
theorem quotient_at (x0 x1 : Arr) (b : Fin 32) (r j : Fin 2048) :
    val_main_v11 (F := Ideal) x0 x1 (ix3 b r j)
      = Ideal.div (weight (qRow x0 b r) (rows x1 b) j) (normalizer (qRow x0 b r) (rows x1 b)) := by
  rw [val_main_v11_apply, weight_at, normalizer_bcast_at]
  rfl

/-- The reference's result, as a function of its three argument arrays, is attention normalized early. -/
theorem result_eq (x0 x1 x2 : Arr) : val_main_v12 (F := Ideal) x0 x1 x2 = attnEarly x0 x1 x2 := by
  funext i
  obtain ⟨b, r, e, rfl⟩ : ∃ (b : Fin 32) (r : Fin 2048) (e : Fin 64), i = ix3 b r e := ⟨i 0, i 1, i 2, eq_ix3 i⟩
  rw [val_main_v12_apply, attnEarly_ix3]
  unfold outEarly
  refine Finset.sum_congr rfl fun k _ => ?_
  rw [show lidx_main_v12 (ix3 b r e) k = ix3 b r k from
        funext fun a => Fin.ext (by match a with | ⟨0, _⟩ => rfl | ⟨1, _⟩ => rfl | ⟨2, _⟩ => rfl),
      show ridx_main_v12 (ix3 b r e) k = ix3 b k e from
        funext fun a => Fin.ext (by match a with | ⟨0, _⟩ => rfl | ⟨1, _⟩ => rfl | ⟨2, _⟩ => rfl),
      quotient_at]
  rfl

end Cert.ReferenceIdeal.Rows

end
-- ==== Proof.FiniteInputs.lean ====
/-
  The precondition says every entry of the three argument arrays is a real number.

  The predicate is, for each array x, "all of |x| < +infinity", the three joined by "and".  It holds (is the word 1) at
  its one index exactly when each "all" holds, and an "all" that holds gives its element fact at every index: the
  absolute value max (x, -x) of the entry is strictly below the top element.  Of the extended reals only the two
  infinities have absolute value equal to the top, so the entry is the coercion of a real.
-/
import proofs.«404728_j7713761263844_3_alg».proof.Pre_finite_inputs
import proofs.«404728_j7713761263844_3_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Pre_finite_inputs.Finite

open Cert.Pre_finite_inputs Cert.Pre_finite_inputs.Gen Idealize.ShloMosaic

/-- The rank-0 shape has one index. -/
instance : Subsingleton S_.Idx := ⟨fun _ _ => funext fun d => d.elim0⟩

/-- The f32 word of plus infinity denotes the top extended real. -/
theorem ofBits_pos_inf_f32 : Ideal.ofBits .f32 0x7F800000#32 = ⊤ := by simp [Ideal.ofBits, Ideal.ieee]

/-- An extended real whose absolute value is strictly below the top is a real number. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One "all of |x| < +infinity" that holds makes every entry of x real. -/
theorem real_of_all (X : FVec Ideal S32x2048x64 .f32)
    (h : Host.reduce IntOp.andi
        (cmpf .olt (Host.absf X) (broadcastInDim S32x2048x64 ![] bcast_S_S32x2048x64 (constant S_ .f32 0x7F800000#32)))
        (constantI S_ 1 1#1) reducesTo_S32x2048x64_S_d0_1_2 h_S_ ValueIdx.ix0 = 1#1)
    (i : S32x2048x64.Idx) : ∃ r : ℝ, X i = (r : EReal) := by
  have e := Host.reduce_andi_all _ _ _ _ _ h i
  refine real_of_abs_lt_top (X i) ?_
  have hb : broadcastInDim S32x2048x64 ![] bcast_S_S32x2048x64 (constant (F := Ideal) S_ .f32 0x7F800000#32) i
      = Ideal.ofBits .f32 0x7F800000#32 :=
    ValueIdx.broadcastInDim_scalar_apply bcast_S_S32x2048x64 _ i
  rw [← ofBits_pos_inf_f32, ← hb]
  exact e

/-- Where the precondition holds of three arrays, every entry of each is a real number. -/
theorem all_real (A B C : FVec Ideal S32x2048x64 .f32) (h : fn (F := Ideal) A B C = fun _ => 1#1) :
    (∀ i, ∃ r : ℝ, A i = (r : EReal)) ∧ (∀ i, ∃ r : ℝ, B i = (r : EReal)) ∧ (∀ i, ∃ r : ℝ, C i = (r : EReal)) := by
  have h0 := congrFun h ValueIdx.ix0
  dsimp only [fn] at h0
  obtain ⟨h01, hC⟩ := IntOp.andi_eq_one.1 h0
  obtain ⟨hA, hB⟩ := IntOp.andi_eq_one.1 h01
  exact ⟨real_of_all A hA, real_of_all B hB, real_of_all C hC⟩

end Cert.Pre_finite_inputs.Finite

end
-- ==== Proof.lean ====
/-
  Attention without a score scale: for query, key and value arrays of shape [32, 2048, 64] the result at (b, r, e) is
  ∑ j, softmax_j (∑ c, Q(b, r, c) · K(b, j, c)) · V(b, j, e).

  The kernel works one block of 1024 query rows at a time against all 2048 key and value rows of the batch: scores by a
  product with the transpose of the keys, the row maximum M, the weights exp (score - M), their row sum L, the product
  of the weights with the values, and only then one multiplication by 1 / L per row.  The reference divides every
  weight by L first and multiplies by the values afterwards.  At the ideal values both read, entry by entry, as one
  attention row (Proof/KernelRow.lean, Proof/ReferenceRows.lean), the kernel's blocks tile the array
  (Proof/KernelBlocks.lean), and the two arrangements of the normalization agree where every input entry is a real
  number (Proof/RowSoftmax.lean, Proof/AttentionArray.lean): then every score is real, the maximum over 2048 of them is
  real, every weight is a positive real and so is L, and (∑ j, w j · v j) · (1 / L) = ∑ j, (w j / L) · v j holds in the
  reals.  That every entry is real is what the precondition says (Proof/FiniteInputs.lean); over the extended reals
  without it the product would not distribute over the sum.

  The three frames are the generated ones (the reference has no kernel: its frame is its run with the result dropped),
  and the idealization rewrote nothing, so there is nothing to preserve.
-/
import proofs.«404728_j7713761263844_3_alg».proof.Defs
import proofs.«404728_j7713761263844_3_alg».proof.Proof.Gen.Kernel
import proofs.«404728_j7713761263844_3_alg».proof.Proof.Gen.Kernel.Skeleton
import proofs.«404728_j7713761263844_3_alg».proof.Proof.Gen.Kernel.Launch
import proofs.«404728_j7713761263844_3_alg».proof.Proof.Gen.Kernel.Points
import proofs.«404728_j7713761263844_3_alg».proof.Proof.Gen.Kernel.Frame
import proofs.«404728_j7713761263844_3_alg».proof.Proof.Gen.KernelIdeal
import proofs.«404728_j7713761263844_3_alg».proof.Proof.Gen.KernelIdeal.Skeleton
import proofs.«404728_j7713761263844_3_alg».proof.Proof.Gen.KernelIdeal.Launch
import proofs.«404728_j7713761263844_3_alg».proof.Proof.Gen.KernelIdeal.Points
import proofs.«404728_j7713761263844_3_alg».proof.Proof.Gen.KernelIdeal.Frame
import proofs.«404728_j7713761263844_3_alg».proof.Proof.Gen.ReferenceIdeal
import proofs.«404728_j7713761263844_3_alg».proof.Proof.Gen.Pre_finite_inputs
import proofs.«404728_j7713761263844_3_alg».proof.Proof.Gen.KernelIdeal.Value
import proofs.«404728_j7713761263844_3_alg».proof.Proof.Gen.ReferenceIdeal.Run
import proofs.«404728_j7713761263844_3_alg».proof.Proof.Gen.ReferenceIdeal.Read
import proofs.«404728_j7713761263844_3_alg».proof.Proof.KernelBlocks
import proofs.«404728_j7713761263844_3_alg».proof.Proof.ReferenceRows
import proofs.«404728_j7713761263844_3_alg».proof.Proof.FiniteInputs
import Idealize.ShloMosaic.Adequacy
import Idealize.ShloMosaic.Init

noncomputable section

namespace Cert.Proof

open Idealize.ShloMosaic Idealize.ShloMosaic.TcCoe Idealize.SL.Sem AttentionRow

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, of which every entry is real, the kernel's output array ends at
    attention normalized late and the reference's at attention normalized early, of the same arrays: one function. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _ _ _).trans ?_
  rw [Cert.ReferenceIdeal.Rows.result_eq, (hagree c).1, (hagree c).2.1, (hagree c).2.2]
  obtain ⟨hQ, hK, hV⟩ := Cert.Pre_finite_inputs.Finite.all_real _ _ _ (hpre c)
  exact (attnLate_eq_attnEarly _ _ _ hQ hK hV).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
